-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 13
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .f32⟩
  | .local _ .vmem, ⟨4, _⟩ => ⟨S400x10000, .f32⟩
  | .local _ .vmem, ⟨5, _⟩ => ⟨S400x10000, .f32⟩
  | .local _ .vmem, ⟨6, _⟩ => ⟨S10000x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x10000, .f32⟩
  | .local _ .vmem, ⟨12, _⟩ => ⟨S400x10000, .f32⟩
  | .local _ .vmem, ⟨13, _⟩ => ⟨S10000x128, .f32⟩
  | .local _ .vmem, ⟨14, _⟩ => ⟨S400x128, .f32⟩
  | .local _ .vmem, ⟨15, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_v4) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The two-layer dense graph convolution over the extended reals, as plain functions of rank-2 indices.
  A matrix is a function of its index; a product's entry is the sum, over the inner index, of the products of
  the two factors' entries; a layer is a product with the transposed weight plus the bias along the rows; the
  rectifier is the entrywise maximum with zero. The network is
      out = A · lin (relu (A · lin x W1ᵀ b1)) W2ᵀ b2 .
  Nothing here knows a program: both programs are shown to compute these functions.
-/
import Idealize.ShloMosaic.PureOps.Ideal
import Idealize.ShloMosaic.Lib.ValueIdx

noncomputable section

open scoped BigOperators

namespace Cert.Gcn

open Idealize.ShloMosaic Idealize.ShloMosaic.ValueIdx

/-- An `m × n` matrix of extended reals: a function of its rank-2 index. -/
abbrev Mat (m n : Nat) : Type := (⟨2, ![m, n]⟩ : Shape).Idx → EReal
/-- A vector of length `n`: a function of its rank-1 index. -/
abbrev Row (n : Nat) : Type := (⟨1, ![n]⟩ : Shape).Idx → EReal

/-- Entry `(p, q)` of the product `a · b`: the sum over the inner index `l` of `a[p, l] · b[l, q]`. -/
def dotAt {M K N : Nat} (a : Mat M K) (b : Mat K N) (p : Fin M) (q : Fin N) : EReal :=
  ∑ l : Fin K, a (ix2 p l) * b (ix2 l q)

/-- The matrix product. -/
def mm {M K N : Nat} (a : Mat M K) (b : Mat K N) : Mat M N := fun i => dotAt a b (i 0) (i 1)

/-- The rectifier, entrywise: the maximum with zero. -/
def relu {M N : Nat} (a : Mat M N) : Mat M N := fun i => max (a i) 0

/-- A linear layer whose bias is kept as a one-row matrix: `a · wt` plus row `0` of `br` added to every row. -/
def linRow {M K N : Nat} (a : Mat M K) (wt : Mat K N) (br : Mat 1 N) : Mat M N :=
  fun i => dotAt a wt (i 0) (i 1) + br (ix2 (0 : Fin 1) (i 1))

/-- A linear layer whose bias is a vector: `a · wt` plus `b` added to every row. -/
def lin {M K N : Nat} (a : Mat M K) (wt : Mat K N) (b : Row N) : Mat M N :=
  fun i => dotAt a wt (i 0) (i 1) + b (ix1 (i 1))

/-- The two layers of the network, given the transposed weights. -/
def net (x : Mat 10000 128) (A : Mat 10000 10000) (w1t : Mat 128 128) (b1 : Row 128) (w2t : Mat 128 128) (b2 : Row 128) :
    Mat 10000 128 :=
  mm A (lin (relu (mm A (lin x w1t b1))) w2t b2)

/-- A one-row bias matrix that holds the vector `b` in its row gives the same layer as the vector. -/
theorem linRow_eq_lin {M K N : Nat} (a : Mat M K) (wt : Mat K N) (br : Mat 1 N) (b : Row N)
    (h : ∀ q : Fin N, br (ix2 (0 : Fin 1) q) = b (ix1 q)) : linRow a wt br = lin a wt b :=
  funext fun i => congrArg (dotAt a wt (i 0) (i 1) + ·) (h (i 1))

/-- Two product entries agree when the two rows agree entry by entry and the two columns do. -/
theorem dotAt_congr {M M' K N N' : Nat} {a : Mat M K} {a' : Mat M' K} {b : Mat K N} {b' : Mat K N'}
    {p : Fin M} {p' : Fin M'} {q : Fin N} {q' : Fin N'}
    (ha : ∀ l, a (ix2 p l) = a' (ix2 p' l)) (hb : ∀ l, b (ix2 l q) = b' (ix2 l q')) :
    dotAt a b p q = dotAt a' b' p' q' :=
  Finset.sum_congr rfl fun l _ => by rw [ha l, hb l]

/-- Entry `i` of a linear layer, from a block of its input: if row `p` of the block `a` is row `i₀` of `A`, the
    weights and the bias rows agree, and `q` is the column `i₁`, then the block's product entry `(p, q)` plus the bias
    is the layer's entry `i`. -/
theorem linRow_congr {M M' K N : Nat} {a : Mat M' K} {wt : Mat K N} {br : Mat 1 N} {A : Mat M K} {W : Mat K N} {B : Mat 1 N}
    (p : Fin M') (q : Fin N) (i : (⟨2, ![M, N]⟩ : Shape).Idx)
    (ha : ∀ l, a (ix2 p l) = A (ix2 (i 0) l)) (hw : ∀ z, wt z = W z) (hb : ∀ z, br z = B z) (hq : i 1 = q) :
    dotAt a wt p q + br (ix2 (0 : Fin 1) q) = linRow A W B i := by
  obtain rfl : wt = W := funext hw
  obtain rfl : br = B := funext hb
  subst hq
  unfold linRow dotAt
  exact congrArg (· + br (ix2 (0 : Fin 1) (i 1))) (Finset.sum_congr rfl fun l _ => by rw [ha l])

end Cert.Gcn

end
-- ==== Proof.KernelDots.lean ====
/-
  The kernel's three matrix products, each read at an index. At the ideal values a product into the zero
  accumulator is, at row `p` and column `q`, the sum over the inner index `l` of `a[p, l] · b[l, q]`:
  the contraction's one axis is re-indexed by its coordinate, and the operands' indices at an output
  index and a contraction coordinate are `(p, l)` and `(l, q)`.
-/
import proofs.«168660_g2817498546214_cont_9to1_1806_2_alg».proof.Proof.Gen.KernelIdeal
import proofs.«168660_g2817498546214_cont_9to1_1806_2_alg».proof.Proof.Gen.KernelIdeal.Skeleton
import proofs.«168660_g2817498546214_cont_9to1_1806_2_alg».proof.Proof.Spec
import Idealize.ShloMosaic.Lib.ValueIdx
import Idealize.ShloMosaic.PureOps.Ideal.Laws

noncomputable section

namespace Cert.Gcn.Kernel

open Cert.KernelIdeal Cert.KernelIdeal.Gen Idealize.ShloMosaic Idealize.ShloMosaic.ValueIdx Cert.Gcn

/-! ### The first layer's product: a 10000 × 128 block of features with a 128 × 128 weight -/

theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `i` of `a · w` into the zero accumulator is the sum over `l : Fin 128` of `a[i₀, l] · w[l, i₁]`. -/
theorem matmulA_apply (a : FVec Ideal S10000x128 .f32) (w : FVec Ideal S128x128 .f32) (i : S10000x128.Idx) :
    matmul dot_S10000x128_S128x128_S10000x128_1_0_0_1_n_n none a w (constant S10000x128 .f32 0x00000000#32) i
      = dotAt a w (i 0) (i 1) := by
  simp only [matmul]
  rw [Ideal.matmul_constant_zero_apply, ← Equiv.sum_comp (contrEquiv1 dot_S10000x128_S128x128_S10000x128_1_0_0_1_n_n 128 rfl rfl).symm]
  unfold dotAt
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx i ((contrEquiv1 dot_S10000x128_S128x128_S10000x128_1_0_0_1_n_n 128 rfl rfl).symm k) = ix2 (i 0) k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx i ((contrEquiv1 dot_S10000x128_S128x128_S10000x128_1_0_0_1_n_n 128 rfl rfl).symm k) = ix2 k (i 1) := funext fun a => Fin.ext (by
    match a with
    | ⟨0, _⟩ => exact (rhsA_0 _ _).trans hk
    | ⟨1, _⟩ => exact rhsA_1 _ _)
  rw [el, er]
  rfl

/-! ### The propagation's product: a 400 × 10000 block of the adjacency with the 10000 × 128 hidden features -/

theorem lhsB_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsB_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsB_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsB_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry `i` of `a · h` into the zero accumulator is the sum over `l : Fin 10000` of `a[i₀, l] · h[l, i₁]`. -/
theorem matmulB_apply (a : FVec Ideal S400x10000 .f32) (h : FVec Ideal S10000x128 .f32) (i : S400x128.Idx) :
    matmul dot_S400x10000_S10000x128_S400x128_1_0_0_1_n_n none a h (constant S400x128 .f32 0x00000000#32) i
      = dotAt a h (i 0) (i 1) := by
  simp only [matmul]
  rw [Ideal.matmul_constant_zero_apply, ← Equiv.sum_comp (contrEquiv1 dot_S400x10000_S10000x128_S400x128_1_0_0_1_n_n 10000 rfl rfl).symm]
  unfold dotAt
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx i ((contrEquiv1 dot_S400x10000_S10000x128_S400x128_1_0_0_1_n_n 10000 rfl rfl).symm k) = ix2 (i 0) k := funext fun a => Fin.ext (by
    match a with
    | ⟨0, _⟩ => exact lhsB_0 _ _
    | ⟨1, _⟩ => exact (lhsB_1 _ _).trans hk)
  have er : dot_S400x10000_S10000x128_S400x128_1_0_0_1_n_n.rhsIdx i ((contrEquiv1 dot_S400x10000_S10000x128_S400x128_1_0_0_1_n_n 10000 rfl rfl).symm k) = ix2 k (i 1) := funext fun a => Fin.ext (by
    match a with
    | ⟨0, _⟩ => exact (rhsB_0 _ _).trans hk
    | ⟨1, _⟩ => exact rhsB_1 _ _)
  rw [el, er]
  rfl

/-! ### The second layer's product: a 400 × 128 block of rectified features with a 128 × 128 weight -/

theorem lhsC_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsC_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsC_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsC_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry `i` of `a · w` into the zero accumulator is the sum over `l : Fin 128` of `a[i₀, l] · w[l, i₁]`. -/
theorem matmulC_apply (a : FVec Ideal S400x128 .f32) (w : FVec Ideal S128x128 .f32) (i : S400x128.Idx) :
    matmul dot_S400x128_S128x128_S400x128_1_0_0_1_n_n none a w (constant S400x128 .f32 0x00000000#32) i
      = dotAt a w (i 0) (i 1) := by
  simp only [matmul]
  rw [Ideal.matmul_constant_zero_apply, ← Equiv.sum_comp (contrEquiv1 dot_S400x128_S128x128_S400x128_1_0_0_1_n_n 128 rfl rfl).symm]
  unfold dotAt
  refine Finset.sum_congr rfl fun k _ => ?_
  have hk := contrEquiv1_symm_val dot_S400x128_S128x128_S400x128_1_0_0_1_n_n 128 rfl rfl k
  have el : dot_S400x128_S128x128_S400x128_1_0_0_1_n_n.lhsIdx i ((contrEquiv1 dot_S400x128_S128x128_S400x128_1_0_0_1_n_n 128 rfl rfl).symm k) = ix2 (i 0) k := funext fun a => Fin.ext (by
    match a with
    | ⟨0, _⟩ => exact lhsC_0 _ _
    | ⟨1, _⟩ => exact (lhsC_1 _ _).trans hk)
  have er : dot_S400x128_S128x128_S400x128_1_0_0_1_n_n.rhsIdx i ((contrEquiv1 dot_S400x128_S128x128_S400x128_1_0_0_1_n_n 128 rfl rfl).symm k) = ix2 k (i 1) := funext fun a => Fin.ext (by
    match a with
    | ⟨0, _⟩ => exact (rhsC_0 _ _).trans hk
    | ⟨1, _⟩ => exact rhsC_1 _ _)
  rw [el, er]
  rfl

end Cert.Gcn.Kernel

end
-- ==== Proof.KernelRegion0.lean ====
/-
  The first launch (the first layer's linear map), at any contents `V` of the buffers when the launch is entered.
  It has one grid point, whose blocks are the whole arrays: the features `x`, the transposed weight and the bias
  kept as a one-row matrix. Entry `(p, q)` of what it writes back is the sum over `l` of `x[p, l] · wt[l, q]`
  plus `br[0, q]`: the output array ends as the linear layer of the three arrays.
-/
import proofs.«168660_g2817498546214_cont_9to1_1806_2_alg».proof.Proof.Gen.KernelIdeal.Frame
import proofs.«168660_g2817498546214_cont_9to1_1806_2_alg».proof.Proof.KernelDots
import Idealize.ShloMosaic.Lib.Pipeline.Value
import Idealize.ShloMosaic.Lib.ValueLayout

set_option maxRecDepth 16384

noncomputable section

namespace Cert.Gcn.Kernel

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value at `(p, q)`: the product of the features and the weight there, plus the bias row at `q`. -/
theorem pay0_apply (x : FVec Ideal S10000x128 .f32) (w : FVec Ideal S128x128 .f32) (b : FVec Ideal S1x128 .f32)
    (p : Fin 10000) (q : Fin 128) :
    k0_pay1 (F := Ideal) x w b (ix2 p q) = dotAt x w p q + b (ix2 (0 : Fin 1) q) := by
  show matmul (F := Ideal) dot_S10000x128_S128x128_S10000x128_1_0_0_1_n_n none x
        (shapeCast S128x128 w shapeCasts_S128x128_S128x128) (constant S10000x128 .f32 0x00000000#32) (ix2 p q)
      + broadcastTo S10000x128 (shapeCast S1x128 b shapeCasts_S1x128_S1x128) broadcasts_S1x128_S10000x128 (ix2 p q) = _
  rw [shapeCast_self, shapeCast_self, broadcastTo_1b_ab_apply]
  exact congrArg (· + b (ix2 (0 : Fin 1) q)) (matmulA_apply x w (ix2 p q))

/-- Every block index of the launch's one point is zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `p` of the features' block is the row of the array that the output block's row `p` lies in. -/
theorem iblk0_0 (c : Dev nD) (t : Fin cfg0.N) (p : Fin 10000) (q : Fin 128) (l : Fin 128) :
    iblk0 V c 0 t (ix2 p l) = V c main_arg0 (ix2 ((((cfg0.win 3).blk t).view.emb (ix2 p q)) 0) l) := by
  obtain ⟨e0, e1, e2, e3, e4, e5, e6, e7⟩ := idx_facts0 t
  show V c main_arg0 (((cfg0.win 0).blk t).view.emb (ix2 p l)) = _
  refine congrArg (V c main_arg0) (funext fun a => Fin.ext ?_)
  match a with
  | ⟨0, _⟩ => show win0_0.index t (0 : Fin 2) * 10000 + 1 * p.val = win0_3.index t (0 : Fin 2) * 10000 + 1 * p.val; omega
  | ⟨1, _⟩ => show win0_0.index t (1 : Fin 2) * 128 + 1 * l.val = l.val; omega
/-- The weight's block is the whole array. -/
theorem iblk0_1 (c : Dev nD) (t : Fin cfg0.N) (z : S128x128.Idx) : iblk0 V c 1 t z = V c main_v0 z := by
  obtain ⟨e0, e1, e2, e3, e4, e5, e6, e7⟩ := idx_facts0 t
  show V c main_v0 (((cfg0.win 1).blk t).view.emb z) = V c main_v0 z
  refine congrArg (V c main_v0) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega
/-- The bias row's block is the whole array. -/
theorem iblk0_2 (c : Dev nD) (t : Fin cfg0.N) (z : S1x128.Idx) : iblk0 V c 2 t z = V c main_v2 z := by
  obtain ⟨e0, e1, e2, e3, e4, e5, e6, e7⟩ := idx_facts0 t
  show V c main_v2 (((cfg0.win 2).blk t).view.emb z) = V c main_v2 z
  refine congrArg (V c main_v2) (funext fun a => Fin.ext ?_)
  match a with
  | ⟨0, _⟩ => show win0_2.index t (0 : Fin 2) * 1 + 1 * (z 0).val = (z 0).val; omega
  | ⟨1, _⟩ => show win0_2.index t (1 : Fin 2) * 128 + 1 * (z 1).val = (z 1).val; omega

/-- What the one point writes back is the whole linear layer. -/
theorem flushed0_eq (c : Dev nD) (t : Fin cfg0.N) :
    (dat0 V c).flushed 3 t
      = ((cfg0.win 3).blk t).view.read (Elt Ideal) (linRow (V c main_arg0) (V c main_v0) (V c main_v2)) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S128x128) hz0, View.ld_unit_zero (S := S1x128) hz0]
  obtain ⟨e0, e1, e2, e3, e4, e5, e6, e7⟩ := idx_facts0 t
  funext y
  obtain ⟨p, q, rfl⟩ : ∃ (p : Fin 10000) (q : Fin 128), y = ix2 p q := ⟨y 0, y 1, eq_ix2 y⟩
  show k0_pay1 (F := Ideal) (iblk0 V c 0 t) (iblk0 V c 1 t) (iblk0 V c 2 t) (ix2 p q)
    = linRow (V c main_arg0) (V c main_v0) (V c main_v2) (((cfg0.win 3).blk t).view.emb (ix2 p q))
  refine (pay0_apply (iblk0 V c 0 t) (iblk0 V c 1 t) (iblk0 V c 2 t) p q).trans ?_
  refine linRow_congr p q _ (fun l => iblk0_0 V c t p q l) (iblk0_1 V c t) (iblk0_2 V c t) (Fin.ext ?_)
  show win0_3.index t (1 : Fin 2) * 128 + 1 * q.val = q.val
  omega

/-- An index of the output is in the one point's block iff each coordinate is in the block's range on its axis. -/
theorem mem_blk0 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v4).slice (win0_3.rect t)).set ↔ _
  rw [View.set_slice_whole, Rect.mem_set_unit]
  exact Iff.rfl

/-- The one point's block is the whole output. -/
theorem cover0 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨e0, e1, e2, e3, e4, e5, e6, e7⟩ := idx_facts0 t0_0
  refine ⟨t0_0, flush0_3 t0_0, ?_⟩
  rw [mem_blk0]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 128 ≤ (i 1).val ∧ (i 1).val < win0_3.index t0_0 (1 : Fin 2) * 128 + 128; omega

/-- The output array after the launch: the linear layer of the features, the transposed weight and the bias row as the
    launch found them. -/
theorem final0 (c : Dev nD) :
    (dat0 V c).arrAt 3 cfg0.N = linRow (V c main_arg0) (V c main_v0) (V c main_v2) :=
  (dat0 V c).arrAt_eq_of_cover 3 (linRow (V c main_arg0) (V c main_v0) (V c main_v2)) (fun t _ => flushed0_eq V c t) cover0

end Cert.Gcn.Kernel

end
-- ==== Proof.KernelRegion1.lean ====
/-
  The middle launch (the first propagation, the rectifier and the second layer fused), at any contents `V` of the
  buffers when the launch is entered. Grid point `t` of 25 holds rows `400·t … 400·t + 399` of the adjacency and,
  whole, the first layer's features `h`, the transposed weight and the bias row. Entry `(p, q)` of what it writes
  back is the sum over `k` of `max (∑ l, A[400·t + p, l] · h[l, k]) 0 · wt[k, q]` plus `br[0, q]`: entry
  `(400·t + p, q)` of the linear layer of the rectified product `A · h`. The 25 blocks cover the output.
-/
import proofs.«168660_g2817498546214_cont_9to1_1806_2_alg».proof.Proof.Gen.KernelIdeal.Frame
import proofs.«168660_g2817498546214_cont_9to1_1806_2_alg».proof.Proof.KernelDots
import Idealize.ShloMosaic.Lib.Pipeline.Value
import Idealize.ShloMosaic.Lib.ValueLayout

set_option maxRecDepth 16384

noncomputable section

namespace Cert.Gcn.Kernel

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value at `(p, q)`: the rectified product of the adjacency block and the features, times the
    weight, plus the bias row at `q`. -/
theorem pay1_apply (a : FVec Ideal S400x10000 .f32) (h : FVec Ideal S10000x128 .f32) (w : FVec Ideal S128x128 .f32)
    (b : FVec Ideal S1x128 .f32) (p : Fin 400) (q : Fin 128) :
    k1_pay1 (F := Ideal) a h w b (ix2 p q)
      = dotAt (fun z : S400x128.Idx => max (dotAt a h (z 0) (z 1)) 0) w p q + b (ix2 (0 : Fin 1) q) := by
  show matmul (F := Ideal) dot_S400x128_S128x128_S400x128_1_0_0_1_n_n none
        (maximumf (matmul (F := Ideal) dot_S400x10000_S10000x128_S400x128_1_0_0_1_n_n none a
            (shapeCast S10000x128 h shapeCasts_S10000x128_S10000x128) (constant S400x128 .f32 0x00000000#32))
          (broadcast S400x128 (Scalar.ofBits .f32 0x00000000#32)))
        (shapeCast S128x128 w shapeCasts_S128x128_S128x128) (constant S400x128 .f32 0x00000000#32) (ix2 p q)
      + broadcastTo S400x128 (shapeCast S1x128 b shapeCasts_S1x128_S1x128) broadcasts_S1x128_S400x128 (ix2 p q) = _
  rw [shapeCast_self, shapeCast_self, shapeCast_self, broadcastTo_1b_ab_apply]
  refine congrArg (· + b (ix2 (0 : Fin 1) q)) ?_
  refine (matmulC_apply _ w (ix2 p q)).trans ?_
  refine congrArg (fun r : S400x128.Idx → EReal => dotAt r w p q) (funext fun z => ?_)
  show max (matmul (F := Ideal) dot_S400x10000_S10000x128_S400x128_1_0_0_1_n_n none a h (constant S400x128 .f32 0x00000000#32) z)
      (Ideal.ofBits .f32 0x00000000#32) = max (dotAt a h (z 0) (z 1)) 0
  rw [matmulB_apply, Ideal.ofBits_zero_f32]

/-- The printed index maps over the grid: the adjacency's and the output's row block is the point itself, every other
    block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The features' block is the whole array. -/
theorem iblk1_1 (c : Dev nD) (t : Fin cfg1.N) (z : S10000x128.Idx) : iblk1 V c 1 t z = V c main_v4 z := by
  obtain ⟨e0, e1, e2, e3, e4, e5, e6, e7, e8, e9⟩ := idx_facts1 t
  show V c main_v4 (((cfg1.win 1).blk t).view.emb z) = V c main_v4 z
  refine congrArg (V c main_v4) (funext fun a => Fin.ext ?_)
  match a with
  | ⟨0, _⟩ => show win1_1.index t (0 : Fin 2) * 10000 + 1 * (z 0).val = (z 0).val; omega
  | ⟨1, _⟩ => show win1_1.index t (1 : Fin 2) * 128 + 1 * (z 1).val = (z 1).val; omega
/-- The weight's block is the whole array. -/
theorem iblk1_2 (c : Dev nD) (t : Fin cfg1.N) (z : S128x128.Idx) : iblk1 V c 2 t z = V c main_v1 z := by
  obtain ⟨e0, e1, e2, e3, e4, e5, e6, e7, e8, e9⟩ := idx_facts1 t
  show V c main_v1 (((cfg1.win 2).blk t).view.emb z) = V c main_v1 z
  refine congrArg (V c main_v1) (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega
/-- The bias row's block is the whole array. -/
theorem iblk1_3 (c : Dev nD) (t : Fin cfg1.N) (z : S1x128.Idx) : iblk1 V c 3 t z = V c main_v3 z := by
  obtain ⟨e0, e1, e2, e3, e4, e5, e6, e7, e8, e9⟩ := idx_facts1 t
  show V c main_v3 (((cfg1.win 3).blk t).view.emb z) = V c main_v3 z
  refine congrArg (V c main_v3) (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- What point `t` writes back is block `t` of the linear layer of the rectified product. -/
theorem flushed1_eq (c : Dev nD) (t : Fin cfg1.N) :
    (dat1 V c).flushed 4 t = ((cfg1.win 4).blk t).view.read (Elt Ideal)
      (linRow (relu (mm (V c main_arg1) (V c main_v4))) (V c main_v1) (V c main_v3)) := by
  show (cfg1.win 4).cut (grid1.coords t) ((dat1 V c).after 4 t) = _
  rw [after1_4]
  unfold out1_4
  rw [View.canon_unit_zero hz1]
  simp only [View.ld_unit_zero (S := S400x10000) hz1, View.ld_unit_zero (S := S10000x128) hz1,
    View.ld_unit_zero (S := S128x128) hz1, View.ld_unit_zero (S := S1x128) hz1]
  obtain ⟨e0, e1, e2, e3, e4, e5, e6, e7, e8, e9⟩ := idx_facts1 t
  funext y
  obtain ⟨p, q, rfl⟩ : ∃ (p : Fin 400) (q : Fin 128), y = ix2 p q := ⟨y 0, y 1, eq_ix2 y⟩
  show k1_pay1 (F := Ideal) (iblk1 V c 0 t) (iblk1 V c 1 t) (iblk1 V c 2 t) (iblk1 V c 3 t) (ix2 p q)
    = linRow (relu (mm (V c main_arg1) (V c main_v4))) (V c main_v1) (V c main_v3) (((cfg1.win 4).blk t).view.emb (ix2 p q))
  refine (pay1_apply (iblk1 V c 0 t) (iblk1 V c 1 t) (iblk1 V c 2 t) (iblk1 V c 3 t) p q).trans ?_
  refine linRow_congr p q _ (fun k => ?_) (iblk1_2 V c t) (iblk1_3 V c t) (Fin.ext ?_)
  · show max (dotAt (iblk1 V c 0 t) (iblk1 V c 1 t) p k) 0
      = max (dotAt (V c main_arg1) (V c main_v4) ((((cfg1.win 4).blk t).view.emb (ix2 p q)) 0) k) 0
    refine congrArg (fun s : EReal => max s 0) (dotAt_congr (fun l => ?_) (fun l => iblk1_1 V c t (ix2 l k)))
    show V c main_arg1 (((cfg1.win 0).blk t).view.emb (ix2 p l)) = V c main_arg1 (ix2 ((((cfg1.win 4).blk t).view.emb (ix2 p q)) 0) l)
    refine congrArg (V c main_arg1) (funext fun a => Fin.ext ?_)
    match a with
    | ⟨0, _⟩ => show win1_0.index t (0 : Fin 2) * 400 + 1 * p.val = win1_4.index t (0 : Fin 2) * 400 + 1 * p.val; omega
    | ⟨1, _⟩ => show win1_0.index t (1 : Fin 2) * 10000 + 1 * l.val = l.val; omega
  · show win1_4.index t (1 : Fin 2) * 128 + 1 * q.val = q.val
    omega

/-- An index of the output is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v5).slice (win1_4.rect t)).set ↔ _
  rw [View.set_slice_whole, Rect.mem_set_unit]
  exact Iff.rfl

/-- Every index of the output is in the block of the point its row falls in. -/
theorem cover1 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨e0, e1, e2, e3, e4, e5, e6, e7, e8, e9⟩ := idx_facts1 t
  have e8' : win1_4.index t (0 : Fin 2) = (i 0).val / 400 := e8
  refine ⟨t, flush1_4 t, ?_⟩
  rw [mem_blk1]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The output array after the launch: the linear layer of the rectified product of the adjacency and the features,
    with the transposed weight and the bias row, all as the launch found them. -/
theorem final1 (c : Dev nD) :
    (dat1 V c).arrAt 4 cfg1.N = linRow (relu (mm (V c main_arg1) (V c main_v4))) (V c main_v1) (V c main_v3) :=
  (dat1 V c).arrAt_eq_of_cover 4 (linRow (relu (mm (V c main_arg1) (V c main_v4))) (V c main_v1) (V c main_v3))
    (fun t _ => flushed1_eq V c t) cover1

end Cert.Gcn.Kernel

end
-- ==== Proof.KernelRegion2.lean ====
/-
  The last launch (the second propagation), at any contents `V` of the buffers when the launch is entered.
  Grid point `t` of 25 holds rows `400·t … 400·t + 399` of the adjacency and all of the hidden features, and
  writes back rows `400·t …` of the output: entry `(r, q)` of its block is the sum over `l` of
  `A[400·t + r, l] · h[l, q]`, which is entry `(400·t + r, q)` of the product `A · h`. The 25 blocks cover the
  output, so the output array ends as `A · h`.
-/
import proofs.«168660_g2817498546214_cont_9to1_1806_2_alg».proof.Proof.Gen.KernelIdeal.Frame
import proofs.«168660_g2817498546214_cont_9to1_1806_2_alg».proof.Proof.KernelDots
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx
open Idealize.SL.Sem Cert.Gcn
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at an index: the product of its two loaded blocks there. -/
theorem pay2_apply (a : FVec Ideal S400x10000 .f32) (h : FVec Ideal S10000x128 .f32) (y : S400x128.Idx) :
    k2_pay1 (F := Ideal) a h y = dotAt a h (y 0) (y 1) := by
  show matmul (F := Ideal) dot_S400x10000_S10000x128_S400x128_1_0_0_1_n_n none a
      (shapeCast S10000x128 h shapeCasts_S10000x128_S10000x128) (constant S400x128 .f32 0x00000000#32) y = _
  rw [shapeCast_self]
  exact matmulB_apply a h y

/-- The printed index maps over the grid: the adjacency's and the output's row block is the point itself, every other
    block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `A · h`. -/
theorem flushed2_eq (c : Dev nD) (t : Fin cfg2.N) :
    (dat2 V c).flushed 2 t = ((cfg2.win 2).blk t).view.read (Elt Ideal) (mm (V c main_arg1) (V c main_v5)) := by
  show (cfg2.win 2).cut (grid2.coords t) ((dat2 V c).after 2 t) = _
  rw [after2_2]
  unfold out2_2
  rw [View.canon_unit_zero hz2]
  simp only [View.ld_unit_zero (S := S400x10000) hz2, View.ld_unit_zero (S := S10000x128) hz2]
  obtain ⟨e0, e1, e2, e3, e4, e5⟩ := idx_facts2 t
  funext y
  show k2_pay1 (F := Ideal) (iblk2 V c 0 t) (iblk2 V c 1 t) y
    = mm (V c main_arg1) (V c main_v5) (((cfg2.win 2).blk t).view.emb y)
  refine (pay2_apply (iblk2 V c 0 t) (iblk2 V c 1 t) y).trans ?_
  unfold mm
  refine dotAt_congr (fun l => ?_) (fun l => ?_)
  · show V c main_arg1 (((cfg2.win 0).blk t).view.emb (ix2 (y 0) l)) = V c main_arg1 (ix2 ((((cfg2.win 2).blk t).view.emb y) 0) l)
    refine congrArg (V c main_arg1) (funext fun a => Fin.ext ?_)
    match a with
    | ⟨0, _⟩ => show win2_0.index t (0 : Fin 2) * 400 + 1 * (y 0).val = win2_2.index t (0 : Fin 2) * 400 + 1 * (y 0).val; omega
    | ⟨1, _⟩ => show win2_0.index t (1 : Fin 2) * 10000 + 1 * l.val = l.val; omega
  · show V c main_v5 (((cfg2.win 1).blk t).view.emb (ix2 l (y 1))) = V c main_v5 (ix2 l ((((cfg2.win 2).blk t).view.emb y) 1))
    refine congrArg (V c main_v5) (funext fun a => Fin.ext ?_)
    match a with
    | ⟨0, _⟩ => show win2_1.index t (0 : Fin 2) * 10000 + 1 * l.val = l.val; omega
    | ⟨1, _⟩ => show win2_1.index t (1 : Fin 2) * 128 + 1 * (y 1).val = win2_2.index t (1 : Fin 2) * 128 + 1 * (y 1).val; omega

/-- An index of the output is in point `t`'s block iff each coordinate is in the block's range on its axis. -/
theorem mem_blk2 (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v6).slice (win2_2.rect t)).set ↔ _
  rw [View.set_slice_whole, Rect.mem_set_unit]
  exact Iff.rfl

/-- Every index of the output is in the block of the point its row falls in. -/
theorem cover2 (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  have hN : cfg2.N = 25 := N_2
  let t : Fin cfg2.N := ⟨(i 0).val / 400, by rw [hN]; omega⟩
  obtain ⟨e0, e1, e2, e3, e4, e5⟩ := idx_facts2 t
  have e4' : win2_2.index t (0 : Fin 2) = (i 0).val / 400 := e4
  refine ⟨t, flush2_2 t, ?_⟩
  rw [mem_blk2]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- The output array after the launch: `A · h` of the adjacency and the hidden features as the launch found them. -/
theorem final2 (c : Dev nD) : (dat2 V c).arrAt 2 cfg2.N = mm (V c main_arg1) (V c main_v5) :=
  (dat2 V c).arrAt_eq_of_cover 2 (mm (V c main_arg1) (V c main_v5)) (fun t _ => flushed2_eq V c t) cover2

end Cert.Gcn.Kernel

end
-- ==== Proof.KernelValue.lean ====
/-
  The kernel program's result buffer after the run, as the network of Spec.lean applied to the argument arrays.
  The buffer contents at the four boundaries of the run are followed backwards: the result is the last launch's output,
  `A · h2`; `h2` is the middle launch's output, the second layer of the rectified `A · h1`; `h1` is the first launch's
  output, the first layer of the features; the transposed weights and the one-row biases were written by the host
  operations before the first launch, and no launch writes them or the arguments.
-/
import proofs.«168660_g2817498546214_cont_9to1_1806_2_alg».proof.Proof.Gen.KernelIdeal.Frame
import proofs.«168660_g2817498546214_cont_9to1_1806_2_alg».proof.Proof.KernelRegion0
import proofs.«168660_g2817498546214_cont_9to1_1806_2_alg».proof.Proof.KernelRegion1
import proofs.«168660_g2817498546214_cont_9to1_1806_2_alg».proof.Proof.KernelRegion2
import Idealize.ShloMosaic.Lib.StableHlo.Run
import Idealize.ShloMosaic.Lib.ValueLayout

set_option maxRecDepth 16384

noncomputable section

namespace Cert.Gcn.Kernel

open Cert.KernelIdeal Cert.KernelIdeal.Gen Idealize.ShloMosaic Idealize.ShloMosaic.TcCoe Idealize.ShloMosaic.ValueIdx
open Idealize.SL.Sem Idealize.ShloMosaic.StableHlo Cert.Gcn
open Idealize.ShloMosaic.Pipeline (Dat Cfg Window)

/-- A layer whose input, weight and bias row are known: the bias row holds the vector `b`. -/
theorem linRow_eq_lin_of {M K N : Nat} {a a' : Mat M K} {wt wt' : Mat K N} {br : Mat 1 N} {b : Row N}
    (ha : a = a') (hw : wt = wt') (hb : ∀ q : Fin N, br (ix2 (0 : Fin 1) q) = b (ix1 q)) :
    linRow a wt br = lin a' wt' b := by
  subst ha hw
  exact linRow_eq_lin a wt br b hb

variable (m : (ℓ : Loc nD τ sig) → Buf (Elt Ideal) ℓ) (ρ : Dev nD → PrngReg)

/-! ## After the host operations (the first launch's entry) -/

theorem W1_arg0 (c : Dev nD) : W1 m ρ c (Proc.devRef .tc main_arg0) = m ((c : Thread nD τ).loc main_arg0) := by
  dsimp only [W1, hostOps0]
  after_results <;> rfl
theorem W1_arg1 (c : Dev nD) : W1 m ρ c (Proc.devRef .tc main_arg1) = m ((c : Thread nD τ).loc main_arg1) := by
  dsimp only [W1, hostOps0]
  after_results <;> rfl
/-- The first weight, transposed. -/
theorem W1_v0 (c : Dev nD) : W1 m ρ c (Proc.devRef .tc main_v0)
    = transpose S128x128 [1, 0] (m ((c : Thread nD τ).loc main_arg2)) transposes_S128x128_S128x128_1_0 := by
  dsimp only [W1, hostOps0]
  after_results <;> rfl
/-- The second weight, transposed. -/
theorem W1_v1 (c : Dev nD) : W1 m ρ c (Proc.devRef .tc main_v1)
    = transpose S128x128 [1, 0] (m ((c : Thread nD τ).loc main_arg4)) transposes_S128x128_S128x128_1_0 := by
  dsimp only [W1, hostOps0]
  after_results <;> rfl
/-- The first bias as a one-row matrix holds the bias vector in its row. -/
theorem W1_v2 (c : Dev nD) (q : Fin 128) :
    W1 m ρ c (Proc.devRef .tc main_v2) (ix2 (0 : Fin 1) q) = m ((c : Thread nD τ).loc main_arg3) (ix1 q) := by
  have e : W1 m ρ c (Proc.devRef .tc main_v2)
      = shapeCast S1x128 (m ((c : Thread nD τ).loc main_arg3)) shapeCasts_S128_S1x128 := by
    dsimp only [W1, hostOps0]
    after_results <;> rfl
  rw [e]
  exact shapeCast_a_1a_apply _ _ _ _
/-- The second bias as a one-row matrix holds the bias vector in its row. -/
theorem W1_v3 (c : Dev nD) (q : Fin 128) :
    W1 m ρ c (Proc.devRef .tc main_v3) (ix2 (0 : Fin 1) q) = m ((c : Thread nD τ).loc main_arg5) (ix1 q) := by
  have e : W1 m ρ c (Proc.devRef .tc main_v3)
      = shapeCast S1x128 (m ((c : Thread nD τ).loc main_arg5)) shapeCasts_S128_S1x128 := by
    dsimp only [W1, hostOps0]
    after_results <;> rfl
  rw [e]
  exact shapeCast_a_1a_apply _ _ _ _

/-! ## After the first launch -/

/-- The first layer's features: `x · W1ᵀ + b1`. -/
theorem W2_v4 (c : Dev nD) : W2 m ρ c (Proc.devRef .tc main_v4)
    = lin (m ((c : Thread nD τ).loc main_arg0))
        (transpose S128x128 [1, 0] (m ((c : Thread nD τ).loc main_arg2)) transposes_S128x128_S128x128_1_0)
        (m ((c : Thread nD τ).loc main_arg3)) :=
  (W2_arr m ρ c 3).trans ((final0 (V1 m ρ) c).trans
    (linRow_eq_lin_of (W1_arg0 m ρ c) (W1_v0 m ρ c) (W1_v2 m ρ c)))
theorem W2_arg1 (c : Dev nD) : W2 m ρ c (Proc.devRef .tc main_arg1) = m ((c : Thread nD τ).loc main_arg1) :=
  (W2_of_ne m ρ c main_arg1 (by decide)).trans (W1_arg1 m ρ c)
theorem W2_v1 (c : Dev nD) : W2 m ρ c (Proc.devRef .tc main_v1)
    = transpose S128x128 [1, 0] (m ((c : Thread nD τ).loc main_arg4)) transposes_S128x128_S128x128_1_0 :=
  (W2_of_ne m ρ c main_v1 (by decide)).trans (W1_v1 m ρ c)
theorem W2_v3 (c : Dev nD) (q : Fin 128) :
    W2 m ρ c (Proc.devRef .tc main_v3) (ix2 (0 : Fin 1) q) = m ((c : Thread nD τ).loc main_arg5) (ix1 q) :=
  (congrFun (W2_of_ne m ρ c main_v3 (by decide)) (ix2 (0 : Fin 1) q)).trans (W1_v3 m ρ c q)

/-! ## After the middle launch -/

/-- The second layer's features: `relu (A · h1) · W2ᵀ + b2`. -/
theorem W3_v5 (c : Dev nD) : W3 m ρ c (Proc.devRef .tc main_v5)
    = lin (relu (mm (m ((c : Thread nD τ).loc main_arg1))
          (lin (m ((c : Thread nD τ).loc main_arg0))
            (transpose S128x128 [1, 0] (m ((c : Thread nD τ).loc main_arg2)) transposes_S128x128_S128x128_1_0)
            (m ((c : Thread nD τ).loc main_arg3)))))
        (transpose S128x128 [1, 0] (m ((c : Thread nD τ).loc main_arg4)) transposes_S128x128_S128x128_1_0)
        (m ((c : Thread nD τ).loc main_arg5)) :=
  (W3_arr m ρ c 4).trans ((final1 (V2 m ρ) c).trans
    (linRow_eq_lin_of (congrArg relu (congrArg₂ mm (W2_arg1 m ρ c) (W2_v4 m ρ c))) (W2_v1 m ρ c) (W2_v3 m ρ c)))
theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)

/-! ## After the last launch -/

/-- The result buffer at the end of the run is the network of the argument arrays. -/
theorem W4_v6 (c : Dev nD) : W4 m ρ c (Proc.devRef .tc main_v6)
    = net (m ((c : Thread nD τ).loc main_arg0)) (m ((c : Thread nD τ).loc main_arg1))
        (transpose S128x128 [1, 0] (m ((c : Thread nD τ).loc main_arg2)) transposes_S128x128_S128x128_1_0)
        (m ((c : Thread nD τ).loc main_arg3))
        (transpose S128x128 [1, 0] (m ((c : Thread nD τ).loc main_arg4)) transposes_S128x128_S128x128_1_0)
        (m ((c : Thread nD τ).loc main_arg5)) :=
  (W4_arr m ρ c 2).trans ((final2 (V3 m ρ) c).trans (congrArg₂ mm (W3_arg1 m ρ c) (W3_v5 m ρ c)))

end Cert.Gcn.Kernel

end
-- ==== Proof.RefValue.lean ====
/-
  The reference program's result is the network of Spec.lean applied to the argument arrays: each host
  product read at an index is the sum over the inner index, each broadcast bias is the bias vector at the
  column, the rectifier is the entrywise maximum with zero. The transposed weights are kept as the
  program's own transposes of the weight arrays.
-/
import proofs.«168660_g2817498546214_cont_9to1_1806_2_alg».proof.Proof.Gen.ReferenceIdeal.Run
import proofs.«168660_g2817498546214_cont_9to1_1806_2_alg».proof.Proof.Gen.ReferenceIdeal.Read
import proofs.«168660_g2817498546214_cont_9to1_1806_2_alg».proof.Proof.Spec

noncomputable section

namespace Cert.Gcn.Ref

open Cert.ReferenceIdeal Cert.ReferenceIdeal.Read Idealize.ShloMosaic Idealize.ShloMosaic.ValueIdx Cert.Gcn

/-! ## The printed index functions are the coordinate constructors -/

theorem lidx1 (i : S10000x128.Idx) (k : Fin 128) : lidx_main_v1 i k = ix2 (i 0) k :=
  funext fun a => by match a with | ⟨0, _⟩ => rfl | ⟨1, _⟩ => rfl
theorem ridx1 (i : S10000x128.Idx) (k : Fin 128) : ridx_main_v1 i k = ix2 k (i 1) :=
  funext fun a => by match a with | ⟨0, _⟩ => rfl | ⟨1, _⟩ => rfl
theorem lidx5 (i : S10000x128.Idx) (k : Fin 10000) : lidx_main_v5 i k = ix2 (i 0) k :=
  funext fun a => by match a with | ⟨0, _⟩ => rfl | ⟨1, _⟩ => rfl
theorem ridx5 (i : S10000x128.Idx) (k : Fin 10000) : ridx_main_v5 i k = ix2 k (i 1) :=
  funext fun a => by match a with | ⟨0, _⟩ => rfl | ⟨1, _⟩ => rfl
theorem lidx8 (i : S10000x128.Idx) (k : Fin 128) : lidx_main_v8 i k = ix2 (i 0) k :=
  funext fun a => by match a with | ⟨0, _⟩ => rfl | ⟨1, _⟩ => rfl
theorem ridx8 (i : S10000x128.Idx) (k : Fin 128) : ridx_main_v8 i k = ix2 k (i 1) :=
  funext fun a => by match a with | ⟨0, _⟩ => rfl | ⟨1, _⟩ => rfl
theorem lidx12 (i : S10000x128.Idx) (k : Fin 10000) : lidx_main_v12 i k = ix2 (i 0) k :=
  funext fun a => by match a with | ⟨0, _⟩ => rfl | ⟨1, _⟩ => rfl
theorem ridx12 (i : S10000x128.Idx) (k : Fin 10000) : ridx_main_v12 i k = ix2 k (i 1) :=
  funext fun a => by match a with | ⟨0, _⟩ => rfl | ⟨1, _⟩ => rfl
/-- The bias broadcast twice reads the bias vector at the column. -/
theorem bidx3 (i : S10000x128.Idx) : idx_main_v2 (idx_main_v3 i) = ix1 (i 1) :=
  funext fun a => by match a with | ⟨0, _⟩ => rfl
theorem bidx10 (i : S10000x128.Idx) : idx_main_v9 (idx_main_v10 i) = ix1 (i 1) :=
  funext fun a => by match a with | ⟨0, _⟩ => rfl

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## Stage by stage -/

/-- The first layer: `x · W1ᵀ + b1`. -/
theorem v4_eq : val_main_v4 (F := Ideal) x0 x2 x3 = lin x0 (val_main_v0 (F := Ideal) x2) x3 := by
  funext i
  rw [val_main_v4_apply, val_main_v1_apply, val_main_v3_apply, val_main_v2_apply, bidx3]
  simp only [lidx1, ridx1]
  rfl

/-- The first propagation: `A · h1`. -/
theorem v5_eq : val_main_v5 (F := Ideal) x0 x1 x2 x3 = mm x1 (val_main_v4 (F := Ideal) x0 x2 x3) := by
  funext i
  rw [val_main_v5_apply]
  simp only [lidx5, ridx5]
  rfl

/-- The rectifier. -/
theorem v6_eq : val_main_v6 (F := Ideal) x0 x1 x2 x3 = relu (val_main_v5 (F := Ideal) x0 x1 x2 x3) := by
  funext i
  rw [val_main_v6_apply, val_main_call0_v0_apply, val_main_call0_cst_apply]
  show max _ (Ideal.ofBits .f32 0x00000000#32) = max _ 0
  rw [Ideal.ofBits_zero_f32]

/-- The second layer: `r · W2ᵀ + b2`. -/
theorem v11_eq : val_main_v11 (F := Ideal) x0 x1 x2 x3 x4 x5
    = lin (val_main_v6 (F := Ideal) x0 x1 x2 x3) (val_main_v7 (F := Ideal) x4) x5 := by
  funext i
  rw [val_main_v11_apply, val_main_v8_apply, val_main_v10_apply, val_main_v9_apply, bidx10]
  simp only [lidx8, ridx8]
  rfl

/-- The second propagation: `A · h2`. -/
theorem v12_eq : val_main_v12 (F := Ideal) x0 x1 x2 x3 x4 x5 = mm x1 (val_main_v11 (F := Ideal) x0 x1 x2 x3 x4 x5) := by
  funext i
  rw [val_main_v12_apply]
  simp only [lidx12, ridx12]
  rfl

/-- The reference's result is the network, with the program's own transposes of the weights. -/
theorem result_eq : val_main_v12 (F := Ideal) x0 x1 x2 x3 x4 x5
    = net x0 x1 (val_main_v0 (F := Ideal) x2) x3 (val_main_v7 (F := Ideal) x4) x5 := by
  rw [v12_eq, v11_eq, v6_eq, v5_eq, v4_eq]
  rfl

end Cert.Gcn.Ref

end
-- ==== Proof.lean ====
/-
  The certificate of a two-layer dense graph convolution, `out = A · (relu (A · (x · W1ᵀ + b1)) · W2ᵀ + b2)`,
  computed by three launches (the first layer; the first propagation fused with the rectifier and the second layer,
  25 row blocks of the adjacency at a time; the second propagation, again 25 row blocks at a time) against the
  same formula written with whole-array products.
  At the ideal values every product entry is the sum, over the inner index, of the factors' products, and both
  programs take these sums over the same index in the same order; the row blocks only say which rows a grid point
  computes. So both results are the one function `net` of Spec.lean of the argument arrays, with no algebraic
  law in between and no use of the inputs' finiteness:
    * KernelRegion0 / 1 / 2: each launch's output array is a whole-array function of the arrays it finds;
    * KernelValue: these are chained through the buffer contents at the launches' boundaries;
    * KernelRun: the run, its post keeping the result buffer at the last boundary's contents;
    * RefValue: the reference's run term, stage by stage, is the same function.
  The three frames are the runs with the result dropped; the idealization rewrote nothing.
-/
import proofs.«168660_g2817498546214_cont_9to1_1806_2_alg».proof.Defs
import proofs.«168660_g2817498546214_cont_9to1_1806_2_alg».proof.Proof.Gen.Kernel
import proofs.«168660_g2817498546214_cont_9to1_1806_2_alg».proof.Proof.Gen.Kernel.Frame
import proofs.«168660_g2817498546214_cont_9to1_1806_2_alg».proof.Proof.Gen.KernelIdeal
import proofs.«168660_g2817498546214_cont_9to1_1806_2_alg».proof.Proof.Gen.KernelIdeal.Frame
import proofs.«168660_g2817498546214_cont_9to1_1806_2_alg».proof.Proof.Gen.ReferenceIdeal
import proofs.«168660_g2817498546214_cont_9to1_1806_2_alg».proof.Proof.Gen.ReferenceIdeal.Run
import proofs.«168660_g2817498546214_cont_9to1_1806_2_alg».proof.Proof.Gen.ReferenceIdeal.Read
import proofs.«168660_g2817498546214_cont_9to1_1806_2_alg».proof.Proof.Gen.Pre_finite_inputs
import proofs.«168660_g2817498546214_cont_9to1_1806_2_alg».proof.Proof.KernelRun
import proofs.«168660_g2817498546214_cont_9to1_1806_2_alg».proof.Proof.KernelValue
import proofs.«168660_g2817498546214_cont_9to1_1806_2_alg».proof.Proof.RefValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the argument arrays in their result buffers. -/
theorem algebraic : Cert.algebraic_KernelIdeal_ReferenceIdeal := by
  intro m ρ m' ρ' _ hagree
  refine ⟨_, (θ_run Cert.KernelIdeal.defs _ _).mono
      (fun _ h c => ⟨(h c).1.trans (Cert.Gcn.Kernel.W4_v6 m ρ c), (h c).2⟩)
      (Cert.Gcn.KernelRun.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Gcn.Ref.result_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
